-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S40x10000 : Shape := ⟨2, ![40, 10000]⟩
abbrev S200x256 : Shape := ⟨2, ![200, 256]⟩
abbrev S40x256 : Shape := ⟨2, ![40, 256]⟩

abbrev nBuf : Space → Nat
  | .hbm => 4
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S40x10000, .f32⟩
  | .local _ .vmem, ⟨1, _⟩ => ⟨S40x10000, .f32⟩
  | .local _ .vmem, ⟨2, _⟩ => ⟨S40x10000, .f32⟩
  | .local _ .vmem, ⟨3, _⟩ => ⟨S40x10000, .f32⟩
  | .local _ .vmem, ⟨4, _⟩ => ⟨S40x10000, .f32⟩
  | .local _ .vmem, ⟨5, _⟩ => ⟨S40x10000, .f32⟩
  | .local _ .vmem, ⟨6, _⟩ => ⟨S40x10000, .f32⟩
  | .local _ .vmem, ⟨7, _⟩ => ⟨S40x10000, .f32⟩
  | .local _ .vmem, ⟨8, _⟩ => ⟨S40x10000, .f32⟩
  | .local _ .vmem, ⟨9, _⟩ => ⟨S40x10000, .f32⟩
  | .local _ .vmem, ⟨10, _⟩ => ⟨S10000x256, .f32⟩
  | .local _ .vmem, ⟨11, _⟩ => ⟨S256x256, .f32⟩
  | .local _ .vmem, ⟨12, _⟩ => ⟨S200x256, .f32⟩
  | .local _ .vmem, ⟨13, _⟩ => ⟨S200x256, .f32⟩
  | .local _ .vmem, ⟨14, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c5_i32 : BitVec 32 := 5#32
  let v0 : BitVec 32 := Scalar.muli arg0 c5_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli arg0 c5_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli arg0 c5_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli arg0 c5_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S200x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S40x10000_S40x10000_0_0 : ∀ a, (![0, 0] : Fin 2 → Nat) a + S40x10000.size a ≤ S40x10000.size a
  h_S40x10000 : 0 < S40x10000.numel
  inb_S200x256_S40x256_0_0 : ∀ a, (![0, 0] : Fin 2 → Nat) a + S40x256.size a ≤ S200x256.size a
  h_S40x256 : 0 < S40x256.numel
  inb_S200x256_S40x256_40_0 : ∀ a, (![40, 0] : Fin 2 → Nat) a + S40x256.size a ≤ S200x256.size a
  inb_S200x256_S40x256_80_0 : ∀ a, (![80, 0] : Fin 2 → Nat) a + S40x256.size a ≤ S200x256.size a
  inb_S200x256_S40x256_120_0 : ∀ a, (![120, 0] : Fin 2 → Nat) a + S40x256.size a ≤ S200x256.size a
  inb_S200x256_S40x256_160_0 : ∀ a, (![160, 0] : Fin 2 → Nat) a + S40x256.size a ≤ S200x256.size a
  dot_S10000x256_S256x256_S10000x256_1_0_0_1_n_n_wf : DotDims.WF S10000x256 S256x256 S10000x256 [1] [0] [0] [1] [] []
  dot_S40x10000_S10000x256_S40x256_1_0_0_1_n_n_wf : DotDims.WF S40x10000 S10000x256 S40x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x10000.size a ≤ S10000x10000.size a
  hwx0_0 : ∀ i : grid0.Coords, EltTy.bits .f32 = 32 ∨ (Rect.block (s := S10000x10000) S40x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x10000.size a ≤ S10000x10000.size a
  hwx0_1 : ∀ i : grid0.Coords, EltTy.bits .f32 = 32 ∨ (Rect.block (s := S10000x10000) S40x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x10000.size a ≤ S10000x10000.size a
  hwx0_2 : ∀ i : grid0.Coords, EltTy.bits .f32 = 32 ∨ (Rect.block (s := S10000x10000) S40x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x10000.size a ≤ S10000x10000.size a
  hwx0_3 : ∀ i : grid0.Coords, EltTy.bits .f32 = 32 ∨ (Rect.block (s := S10000x10000) S40x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S40x10000.size a ≤ S10000x10000.size a
  hwx0_4 : ∀ i : grid0.Coords, EltTy.bits .f32 = 32 ∨ (Rect.block (s := S10000x10000) S40x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x256.size a ≤ S10000x256.size a
  hwx0_5 : ∀ i : grid0.Coords, EltTy.bits .f32 = 32 ∨ (Rect.block (s := S10000x256) S10000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x256.size a ≤ S10000x256.size a
  hwx0_7 : ∀ i : grid0.Coords, EltTy.bits .f32 = 32 ∨ (Rect.block (s := S10000x256) S200x256.size (cc0_transform_7 i) (hinb0_7 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S40x10000_S10000x256_S40x256_1_0_0_1_n_n : DotDims S40x10000 S10000x256 S40x256 where
  lhsContracting := [1]
  rhsContracting := [0]
  lhsNonContracting := [0]
  rhsNonContracting := [1]
  lhsBatch := []
  rhsBatch := []
  wf := dot_S40x10000_S10000x256_S40x256_1_0_0_1_n_n_wf

abbrev win0_0 : Pipeline.Window sig grid0 :=
  Pipeline.Window.ofSpec (Memref.whole main_arg1) S40x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S40x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S40x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S40x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S10000x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S200x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.K.Body.lean ====
/-
  The kernel body, run symbolically on whole staging memrefs.

  One grid point handles 200 rows of the result. The body stores five strips of 40 rows each into the result's
  staging buffer; strip j is the product of the j-th 40 x 10000 block of adj with the 10000 x 256 scratch.
  At the first grid point the body first fills the scratch with the product x · w; at every later point the
  scratch still holds what the first point stored.

  * `outBlk a0 … a4 s`: the 200 x 256 block the five stores leave, as a function of the five adj blocks and of
    the scratch contents `s`: the strips tile the block, so every index is covered by exactly one of them;
  * `sound_first`: the body at the first point, the scratch at anything before and at x · w after;
  * `sound_later`: the body at a later point, the scratch at `s` before and after.
-/
import proofs.«111041_g76141180224082_cont_9to1_m_266_7_alg».proof.Proof.Gen.Kernel.Launch
import proofs.«111041_g76141180224082_cont_9to1_m_266_7_alg».proof.Proof.Gen.Kernel.Skeleton
import proofs.«111041_g76141180224082_cont_9to1_m_266_7_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body (grid coordinate 0 equals zero), as the printed scalar chain spells it. -/
abbrev isFirst (i : grid0.Coords) : Prop := (Scalar.cmpi .ne (Scalar.extui (Scalar.cmpi .eq (BitVec.ofNat 32 (i 0).val) 0#32)) 0#32) = 1#1

/-- Over the 50 grid points the condition holds exactly at point 0. -/
theorem isFirst_iff : ∀ t : Fin cfg0.N, isFirst (grid0.coords t) ↔ t.val = 0 :=
  (by decide +kernel : ∀ t : Fin grid0.N, isFirst (grid0.coords t) ↔ t.val = 0)

/-- The whole-buffer rectangle's offsets are zero. -/
theorem off0 : (![0, 0] : Fin 2 → ℕ) = fun _ => 0 := funext fun a => by fin_cases a <;> rfl

/-- The five strips the body stores into the result's staging buffer, last store first: strip j (rows 40 j to
    40 j + 39) is the product of adj block j with the scratch contents `s`. -/
def outPieces (a0 a1 a2 a3 a4 : Vec F S40x10000 .f32) (s : Vec F S10000x256 .bf16) : List (View.Piece (Elt F) S200x256 .f32) :=
  [⟨Rect.unit ![160, 0] S40x256.size inb_S200x256_S40x256_160_0, k0_pay1 a4 s⟩,
   ⟨Rect.unit ![120, 0] S40x256.size inb_S200x256_S40x256_120_0, k0_pay6 a3 s⟩,
   ⟨Rect.unit ![80, 0] S40x256.size inb_S200x256_S40x256_80_0, k0_pay5 a2 s⟩,
   ⟨Rect.unit ![40, 0] S40x256.size inb_S200x256_S40x256_40_0, k0_pay4 a1 s⟩,
   ⟨Rect.unit ![0, 0] S40x256.size inb_S200x256_S40x256_0_0, k0_pay3 a0 s⟩]

/-- The five strips tile the 200 x 256 block: every index lies in one of them. -/
theorem outPieces_cover (a0 a1 a2 a3 a4 : Vec F S40x10000 .f32) (s : Vec F S10000x256 .bf16) (y : S200x256.Idx) :
    ∃ pc ∈ outPieces a0 a1 a2 a3 a4 s, y ∈ pc.1.set :=
  View.cover_of_tiled (outPieces a0 a1 a2 a3 a4 s) S40x256.size (by rfl) y

/-- What the body leaves in the result's staging buffer: the block assembled from the five strips. -/
def outBlk (a0 a1 a2 a3 a4 : Vec F S40x10000 .f32) (s : Vec F S10000x256 .bf16) : S200x256.Idx → Elt F .f32 :=
  View.canon (outPieces a0 a1 a2 a3 a4 s)

set_option maxHeartbeats 1000000 in
/-- The body at a LATER grid point (the branch not taken): the five adj blocks, x and w are read and left in
    place, the scratch is read five times and left at `s`, and the result's buffer ends at `outBlk a0 … a4 s`. -/
theorem sound_later (c : Dev nD) (i : grid0.Coords) (hc : ¬ isFirst i)
    (arg1 : Memref sig .tc .vmem S40x10000 .f32) (harg1 : arg1.IsWhole) (arg2 : Memref sig .tc .vmem S40x10000 .f32) (harg2 : arg2.IsWhole)
    (arg3 : Memref sig .tc .vmem S40x10000 .f32) (harg3 : arg3.IsWhole) (arg4 : Memref sig .tc .vmem S40x10000 .f32) (harg4 : arg4.IsWhole)
    (arg5 : Memref sig .tc .vmem S40x10000 .f32) (harg5 : arg5.IsWhole) (arg6 : Memref sig .tc .vmem S10000x256 .f32) (harg6 : arg6.IsWhole)
    (arg7 : Memref sig .tc .vmem S256x256 .f32) (harg7 : arg7.IsWhole) (arg8 : Memref sig .tc .vmem S200x256 .f32) (harg8 : arg8.IsWhole)
    (arg9 : Memref sig .tc .vmem S10000x256 .bf16) (harg9 : arg9.IsWhole)
    (a0 a1 a2 a3 a4 : Vec F S40x10000 .f32) (x : Vec F S10000x256 .f32) (w : Vec F S256x256 .f32) (s : Vec F S10000x256 .bf16)
    (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
        ∗ (∃ d, owns (c : Thread nD τ) arg8 fullShare d) ∗ owns (c : Thread nD τ) arg9 fullShare s
        ∗ (iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
            ∗ owns (c : Thread nD τ) arg8 fullShare (outBlk a0 a1 a2 a3 a4 s) ∗ owns (c : Thread nD τ) arg9 fullShare s) -∗ K ⟨⟩))
      ⊢ wp frame (wpE (defs₀ (F := F)) Variants.none c none) Set.univ (cc0__fused_body i arg1 harg1 arg2 harg2 arg3 harg3 arg4 harg4 arg5 harg5 arg6 harg6 arg7 harg7 arg8 harg8 arg9 harg9) K := by
  simp only [cc0__fused_body_eq_skeleton]; unfold cc0__fused_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    simp only [View.readAt_eq_ld, View.ld_unit_zero (S := S40x10000) off0, View.ld_unit_zero (S := S10000x256) off0]
    exact View.read_writes_eq_canon _ _ _ (outPieces_cover _ _ _ _ _ _)
  iexists f9; isplitr; · ipureintro; rfl
  iexact H9

/-- One store through the whole scratch covers every index of it. -/
theorem scratch_cover (v : Vec F S10000x256 .bf16) (y : S10000x256.Idx) :
    ∃ pc ∈ ([⟨Rect.unit ![0, 0] S10000x256.size inb_S10000x256_S10000x256_0_0, v⟩] : List (View.Piece (Elt F) S10000x256 .bf16)), y ∈ pc.1.set :=
  ⟨_, List.mem_singleton_self _, View.mem_set_unit_zero off0 inb_S10000x256_S10000x256_0_0 y⟩

set_option maxHeartbeats 1000000 in
/-- The body at the FIRST grid point (the branch taken): x and w are read, their product `k0_pay2 x w` is stored
    over the whole scratch (whatever it held), and the five strips are then computed from that scratch:
    the result's buffer ends at `outBlk a0 … a4 (k0_pay2 x w)` and the scratch at `k0_pay2 x w`. -/
theorem sound_first (c : Dev nD) (i : grid0.Coords) (hc : isFirst i)
    (arg1 : Memref sig .tc .vmem S40x10000 .f32) (harg1 : arg1.IsWhole) (arg2 : Memref sig .tc .vmem S40x10000 .f32) (harg2 : arg2.IsWhole)
    (arg3 : Memref sig .tc .vmem S40x10000 .f32) (harg3 : arg3.IsWhole) (arg4 : Memref sig .tc .vmem S40x10000 .f32) (harg4 : arg4.IsWhole)
    (arg5 : Memref sig .tc .vmem S40x10000 .f32) (harg5 : arg5.IsWhole) (arg6 : Memref sig .tc .vmem S10000x256 .f32) (harg6 : arg6.IsWhole)
    (arg7 : Memref sig .tc .vmem S256x256 .f32) (harg7 : arg7.IsWhole) (arg8 : Memref sig .tc .vmem S200x256 .f32) (harg8 : arg8.IsWhole)
    (arg9 : Memref sig .tc .vmem S10000x256 .bf16) (harg9 : arg9.IsWhole)
    (a0 a1 a2 a3 a4 : Vec F S40x10000 .f32) (x : Vec F S10000x256 .f32) (w : Vec F S256x256 .f32)
    (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
        ∗ (∃ d, owns (c : Thread nD τ) arg8 fullShare d) ∗ (∃ g, arg9.view.loc (c : Thread nD τ) ↦[arg9.view.set]{fullShare} g)
        ∗ (iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
            ∗ owns (c : Thread nD τ) arg8 fullShare (outBlk a0 a1 a2 a3 a4 (k0_pay2 x w)) ∗ owns (c : Thread nD τ) arg9 fullShare (k0_pay2 x w)) -∗ K ⟨⟩))
      ⊢ wp frame (wpE (defs₀ (F := F)) Variants.none c none) Set.univ (cc0__fused_body i arg1 harg1 arg2 harg2 arg3 harg3 arg4 harg4 arg5 harg5 arg6 harg6 arg7 harg7 arg8 harg8 arg9 harg9) K := by
  simp only [cc0__fused_body_eq_skeleton]; unfold cc0__fused_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, H9⟩, Hk⟩
  subst hf1 hf2 hf3 hf4 hf5 hf6 hf7
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    sl_unfold_words
    simp only [View.readAt_eq_ld, View.ld_unit_zero (S := S40x10000) off0, View.ld_unit_zero (S := S10000x256) off0,
      View.ld_unit_zero (S := S256x256) off0, View.readCov_unit_zero (S := S10000x256) _ off0]
    exact View.read_writes_eq_canon _ _ _ (outPieces_cover _ _ _ _ _ _)
  iexists _; isplitr
  swap; · iexact H9
  ipureintro
  sl_unfold_words
  rw [View.read_writes_eq_canon _ _ _ (scratch_cover _), View.canon_unit_zero off0]
  simp only [View.readAt_eq_ld, View.ld_unit_zero (S := S10000x256) off0, View.ld_unit_zero (S := S256x256) off0]

end Cert.Kernel.Hand

end
-- ==== Proof.K.Data.lean ====
/-
  The proof data of the one pipeline.

  * The arrays are as launched (the program is the kernel region alone).
  * adj is handed to the kernel through five windows: window j at grid point t is rows 200 t + 40 j … + 39 of adj.
    The five windows only read adj, so adj's full share is dealt among them in five parts.
  * x and w are each one whole-array window, fetched at the first point only; the body never writes them, so their
    staging buffers hold x and w at every point.
  * The result's window is written back after every point; its block at point t is `outBlk` of the five adj blocks
    at t and of the scratch.
  * The scratch is carried from point to point: anything before point 0, the product x · w (`sup`) from point 1 on.
-/
import proofs.«111041_g76141180224082_cont_9to1_m_266_7_alg».proof.Proof.K.Body
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's functions have no recursion variant. -/
abbrev 𝒱₀ : Variants := Variants.none

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- The program up to the region is the region alone. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- What the scratch holds from point 1 on: the product of x and w as the first point computes it. -/
def sup (c : Dev nD) : Vec F S10000x256 .bf16 := k0_pay2 (iblk m c 5 t0) (iblk m c 6 t0)

/-- The scratch buffer as a memref of its literal type. -/
abbrev scr : Memref sig .tc .vmem S10000x256 .bf16 := Memref.whole cc0_scratch0

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (sup m c)
  Φ t := iprop(∃ f : Buf (Elt F) ((c : Thread nD τ).loc cc0_scratch0),
      ⌜t.val ≠ 0 → scr.view.read (Elt F) f = sup m c⌝ ∗ ((c : Thread nD τ).loc cc0_scratch0) ↦{fullShare} f)
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := rfl

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlk (iblk m c 0 t) (iblk m c 1 t) (iblk m c 2 t) (iblk m c 3 t) (iblk m c 4 t) (sup m c) := by dsimp only [dats]

/-- The invariant before point `t`. -/
theorem Φ_eq (c : Dev nD) (t : Fin (cfg0.N + 1)) : (dats m 0 c).Φ t
    = iprop(∃ f : Buf (Elt F) ((c : Thread nD τ).loc cc0_scratch0),
        ⌜t.val ≠ 0 → scr.view.read (Elt F) f = sup m c⌝ ∗ ((c : Thread nD τ).loc cc0_scratch0) ↦{fullShare} f) := rfl

/-- Each input's current staging buffer holds its block at every point, fetched there or not: the body leaves the
    block in place, and an input not fetched at a point has the block index it had at the point before. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans
    (by unfold Dat.fetched Dat.blockOf iblk; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans
    (by unfold Dat.fetched Dat.blockOf iblk; rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; rfl) t d).trans
    (by unfold Dat.fetched Dat.blockOf iblk; rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; rfl) t d).trans
    (by unfold Dat.fetched Dat.blockOf iblk; rfl)

/-- x's and w's windows have one block, the whole array: at every point it is the block of the first point. -/
theorem iblk_5 (c : Dev nD) (t : Fin cfg0.N) : iblk m c 5 t = iblk m c 5 t0 := rfl
theorem iblk_6 (c : Dev nD) (t : Fin cfg0.N) : iblk m c 6 t = iblk m c 6 t0 := rfl

end Cert.Kernel.Hand

end
-- ==== Proof.K.Oblig.lean ====
/-
  The body obligation: at every grid point, from the invariant and each window's current staging buffer at what it
  then holds, the kernel body runs to the invariant of the next point and each buffer at what the proof data say.

  At point 0 the scratch is unconstrained and the body fills it with x · w; at a later point the invariant says the
  scratch reads x · w and the body leaves it so. The five adj windows hold their blocks, x's and w's windows hold x
  and w, and the result's buffer, whatever it held, ends at the block of five strips.
-/
import proofs.«111041_g76141180224082_cont_9to1_m_266_7_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch as the invariant holds it and as the body's run names it: one points-to. -/
theorem scr_eq (c : Dev nD) (f : Buf (Elt F) ((c : Thread nD τ).loc cc0_scratch0)) :
    (scr.view.loc (c : Thread nD τ) ↦[scr.view.set]{fullShare} f : sProp 𝕄)
      = ((c : Thread nD τ).loc cc0_scratch0) ↦{fullShare} f := by
  simp only [Memref.view_whole, View.set_whole]

/-- The scratch read as `X` through its memref is the buffer at contents that read as `X`. -/
theorem owns_scr (c : Dev nD) (X : Vec F S10000x256 .bf16) :
    (owns (c : Thread nD τ) scr fullShare X : sProp 𝕄)
      = iprop(∃ f : Buf (Elt F) ((c : Thread nD τ).loc cc0_scratch0), ⌜scr.view.read (Elt F) f = X⌝ ∗ ((c : Thread nD τ).loc cc0_scratch0) ↦{fullShare} f) := by
  unfold owns
  simp only [Memref.view_whole, View.set_whole]

/-- The scratch read as x · w re-establishes the invariant of any point. -/
theorem inv_of_owns (c : Dev nD) (n : ℕ) :
    (owns (c : Thread nD τ) scr fullShare (sup m c) : sProp 𝕄)
      ⊢ iprop(∃ f : Buf (Elt F) ((c : Thread nD τ).loc cc0_scratch0),
          ⌜n ≠ 0 → scr.view.read (Elt F) f = sup m c⌝ ∗ ((c : Thread nD τ).loc cc0_scratch0) ↦{fullShare} f) := by
  rw [owns_scr]
  iintro ⟨%f, %hf, H⟩
  iexists f; isplitr; · ipureintro; intro _; exact hf
  iexact H

/-- The scratch at contents that read as x · w is owned through its memref at x · w. -/
theorem owns_of_pts (c : Dev nD) (g : Buf (Elt F) ((c : Thread nD τ).loc cc0_scratch0)) (hs : scr.view.read (Elt F) g = sup m c) :
    (((c : Thread nD τ).loc cc0_scratch0) ↦{fullShare} g : sProp 𝕄) ⊢ owns (c : Thread nD τ) scr fullShare (sup m c) := by
  rw [owns_scr]
  iintro H
  iexists g; isplitr; · ipureintro; exact hs
  iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, Φ_eq, Φ_eq]
  iintro ⟨⟨%g, %hg, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases ht : t.val = 0
  · -- the first point: the scratch holds anything; the body fills it
    obtain rfl : t = t0 := Fin.ext ht
    have hc : isFirst (grid0.coords t0) := (isFirst_iff t0).mpr rfl
    iapply (sound_first c (grid0.coords t0) hc _ _ _ _ _ _ _ _ _ _ _ _ _ _ _ _ scr (Memref.isWhole_whole _)
      (iblk m c 0 t0) (iblk m c 1 t0) (iblk m c 2 t0) (iblk m c 3 t0) (iblk m c 4 t0) (iblk m c 5 t0) (iblk m c 6 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists g; rw [scr_eq]; iexact HS
    iintro ⟨H0, H1, H2, H3, H4, H5, H6, H7, H9⟩
    isplitl [H9]
    · iapply (inv_of_owns m c _); iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point: the scratch reads x · w and is left so
    have hc : ¬ isFirst (grid0.coords t) := fun h => ht ((isFirst_iff t).mp h)
    have hs : scr.view.read (Elt F) g = sup m c := hg ht
    iapply (sound_later c (grid0.coords t) hc _ _ _ _ _ _ _ _ _ _ _ _ _ _ _ _ scr (Memref.isWhole_whole _)
      (iblk m c 0 t) (iblk m c 1 t) (iblk m c 2 t) (iblk m c 3 t) (iblk m c 4 t) (iblk m c 5 t) (iblk m c 6 t) (sup m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iapply (owns_of_pts m c g hs); iexact HS
    iintro ⟨H0, H1, H2, H3, H4, H5, H6, H7, H9⟩
    isplitl [H9]
    · iapply (inv_of_owns m c _); iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) 𝒱₀ () Set.univ := fun t => by
  rw [bigSep_W0, bigSep_W0]
  exact sound_body m c t

end Cert.Kernel.Hand

end
-- ==== Proof.K.Split.lean ====
/-
  adj is read through five windows. The launch hands the kernel each distinct array once, whole; the proof data hold
  adj once per window, at five shares that together make the whole. This module deals the whole among the five.
-/
import proofs.«111041_g76141180224082_cont_9to1_m_266_7_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The shares at which the proof data hold the windows' arrays: adj's five parts, and the whole for x, w and the result. -/
theorem share_0 (c : Dev nD) : (dats m 0 c).share 0 = fullShare.left := by
  unfold Dat.share; rw [if_neg (by decide)]; dsimp only [dats]
theorem share_1 (c : Dev nD) : (dats m 0 c).share 1 = fullShare.right.left := by
  unfold Dat.share; rw [if_neg (by decide)]; dsimp only [dats]
theorem share_2 (c : Dev nD) : (dats m 0 c).share 2 = fullShare.right.right.left := by
  unfold Dat.share; rw [if_neg (by decide)]; dsimp only [dats]
theorem share_3 (c : Dev nD) : (dats m 0 c).share 3 = fullShare.right.right.right.left := by
  unfold Dat.share; rw [if_neg (by decide)]; dsimp only [dats]
theorem share_4 (c : Dev nD) : (dats m 0 c).share 4 = fullShare.right.right.right.right := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_neg (by decide)]; dsimp only [dats]
theorem share_7 (c : Dev nD) : (dats m 0 c).share 7 = fullShare := by
  unfold Dat.share; rw [if_pos (by decide)]

/-- The distinct arrays behind the eight windows are adj, x, w and the result: the launch's hand-over, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg1) ↦{fullShare} V m c main_arg1)
          ∗ (((c : Thread nD τ).loc main_arg0) ↦{fullShare} V m c main_arg0)
          ∗ (((c : Thread nD τ).loc main_arg2) ↦{fullShare} V m c main_arg2)
          ∗ (((c : Thread nD τ).loc main_v0) ↦{fullShare} V m c main_v0)) := by
  unfold Pipeline.arrBufs
  exact bigSep_eq_bigSepL_of_eq [main_arg1, main_arg0, main_arg2, main_v0] (by decide) (by decide) _

/-- The distinct arrays behind the windows, each whole at its launch contents, make the proof data's arrays at entry:
    adj's whole share split in five, x, w and the result each whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  -- the distinct arrays one by one on the left, the windows one by one on the right
  rw [arrBufs_eq]
  unfold Dat.arrays
  rw [bigSep_W0]
  -- each window's share, and each window's array a whole buffer
  rw [share_0, share_1, share_2, share_3, share_4, share_5, share_6, share_7]
  simp only [View.set_whole]
  iintro ⟨Hadj, Hx, Hw, Ho⟩
  -- adj: the whole is the left half and the right half, four times over
  ihave Hadj := (pointsTo_share (PosShare.mem_left_op_right fullShare)).1 $$ Hadj
  icases Hadj with ⟨H0, Hadj⟩
  ihave Hadj := (pointsTo_share (PosShare.mem_left_op_right fullShare.right)).1 $$ Hadj
  icases Hadj with ⟨H1, Hadj⟩
  ihave Hadj := (pointsTo_share (PosShare.mem_left_op_right fullShare.right.right)).1 $$ Hadj
  icases Hadj with ⟨H2, Hadj⟩
  ihave Hadj := (pointsTo_share (PosShare.mem_left_op_right fullShare.right.right.right)).1 $$ Hadj
  icases Hadj with ⟨H3, H4⟩
  isplitl [H0]; · iexact H0
  isplitl [H1]; · iexact H1
  isplitl [H2]; · iexact H2
  isplitl [H3]; · iexact H3
  isplitl [H4]; · iexact H4
  -- x, w and the result: each the one window of its array
  isplitl [Hx]; · iexact Hx
  isplitl [Hw]; · iexact Hw
  iexact Ho

end Cert.Kernel.Hand

end
-- ==== Proof.K.Launch.lean ====
/-
  The run of the program: the kernel region launched once, over windows that share the array adj.

  From the body obligation, the deal of adj among its five windows, and the scratch entering the region at anything
  and leaving it forgotten, every weakly fair execution terminates without a fault, and in the final state every
  window's array holds what the proof data compute for it: an input array its launch contents, the result the launch
  contents overwritten block by block by what each point left. The frame claim reads the three argument arrays off
  that; the value claim reads the result.
-/
import proofs.«111041_g76141180224082_cont_9to1_m_266_7_alg».proof.Proof.K.Oblig
import proofs.«111041_g76141180224082_cont_9to1_m_266_7_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch enters the region at some contents; before point 0 the invariant asks no more. -/
theorem inv_entry (c : Dev nD) :
    (iprop(emp ∗ Pipeline.scopedRest (Ix := Unit) (Name := ℕ) (U := UR sig nD τ) (Lvl := ℕ) (Val := Elt F) spec0 c) : sProp 𝕄)
      ⊢ (dats m 0 c).Φ 0 := by
  rw [scopedRest0_eq, Φ_eq]
  iintro ⟨-, ⟨%f, H⟩⟩
  iexists f; isplitr; · ipureintro; intro h; exact absurd rfl h
  iexact H

/-- After the last point the scratch is given back at whatever it holds. -/
theorem inv_exit (c : Dev nD) :
    (dats m 0 c).Φ (Fin.last cfg0.N)
      ⊢ (iprop(emp ∗ Pipeline.scopedRest (Ix := Unit) (Name := ℕ) (U := UR sig nD τ) (Lvl := ℕ) (Val := Elt F) spec0 c) : sProp 𝕄) := by
  rw [scopedRest0_eq, Φ_eq]
  iintro ⟨%f, -, H⟩
  isplitr; · iempintro
  iexists f; iexact H

/-- THE RUN: every weakly fair execution terminates, nothing faulting, and every window's array ends at the proof
    data's final contents. -/
theorem run_main : θ_run defs (onTc (τ := τ) (main (F := F))) ⟨m, fun _ => 0, ρ⟩
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := inv_entry m) (hout := inv_exit m)
    (QY := fun _ _ => True)
    (hY := fun c s' => by
      iintro ⟨-, -, HSI⟩
      imodintro
      isplitr; · ipureintro; trivial
      iexact HSI)
    (hQ := fun s h c w => (h c).1 w)

/-- THE FRAME: the three argument arrays end as they were launched (adj read through its first window). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 5).trans ((dats m 0 c).arrAt_in 5 rfl _), (h c 0).trans ((dats m 0 c).arrAt_in 0 rfl _), (h c 6).trans ((dats m 0 c).arrAt_in 6 rfl _)⟩)
    (run_main m ρ)

/-- THE RUN, read at the result and the arguments: the result array ends at the proof data's final contents of the
    result's window, the arguments as launched. -/
theorem run_result : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c 7, (h c 5).trans ((dats m 0 c).arrAt_in 5 rfl _), (h c 0).trans ((dats m 0 c).arrAt_in 0 rfl _), (h c 6).trans ((dats m 0 c).arrAt_in 6 rfl _)⟩)
    (run_main m ρ)

end Cert.Kernel.Hand

end
-- ==== Proof.KI.Body.lean ====
/-
  The kernel body, run symbolically on whole staging memrefs.

  One grid point handles 200 rows of the result. The body stores five strips of 40 rows each into the result's
  staging buffer; strip j is the product of the j-th 40 x 10000 block of adj with the 10000 x 256 scratch.
  At the first grid point the body first fills the scratch with the product x · w; at every later point the
  scratch still holds what the first point stored.

  * `outBlk a0 … a4 s`: the 200 x 256 block the five stores leave, as a function of the five adj blocks and of
    the scratch contents `s`: the strips tile the block, so every index is covered by exactly one of them;
  * `sound_first`: the body at the first point, the scratch at anything before and at x · w after;
  * `sound_later`: the body at a later point, the scratch at `s` before and after.
-/
import proofs.«111041_g76141180224082_cont_9to1_m_266_7_alg».proof.Proof.Gen.KernelIdeal.Launch
import proofs.«111041_g76141180224082_cont_9to1_m_266_7_alg».proof.Proof.Gen.KernelIdeal.Skeleton
import proofs.«111041_g76141180224082_cont_9to1_m_266_7_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body (grid coordinate 0 equals zero), as the printed scalar chain spells it. -/
abbrev isFirst (i : grid0.Coords) : Prop := (Scalar.cmpi .ne (Scalar.extui (Scalar.cmpi .eq (BitVec.ofNat 32 (i 0).val) 0#32)) 0#32) = 1#1

/-- Over the 50 grid points the condition holds exactly at point 0. -/
theorem isFirst_iff : ∀ t : Fin cfg0.N, isFirst (grid0.coords t) ↔ t.val = 0 :=
  (by decide +kernel : ∀ t : Fin grid0.N, isFirst (grid0.coords t) ↔ t.val = 0)

/-- The whole-buffer rectangle's offsets are zero. -/
theorem off0 : (![0, 0] : Fin 2 → ℕ) = fun _ => 0 := funext fun a => by fin_cases a <;> rfl

/-- The five strips the body stores into the result's staging buffer, last store first: strip j (rows 40 j to
    40 j + 39) is the product of adj block j with the scratch contents `s`. -/
def outPieces (a0 a1 a2 a3 a4 : Vec F S40x10000 .f32) (s : Vec F S10000x256 .bf16) : List (View.Piece (Elt F) S200x256 .f32) :=
  [⟨Rect.unit ![160, 0] S40x256.size inb_S200x256_S40x256_160_0, k0_pay1 a4 s⟩,
   ⟨Rect.unit ![120, 0] S40x256.size inb_S200x256_S40x256_120_0, k0_pay6 a3 s⟩,
   ⟨Rect.unit ![80, 0] S40x256.size inb_S200x256_S40x256_80_0, k0_pay5 a2 s⟩,
   ⟨Rect.unit ![40, 0] S40x256.size inb_S200x256_S40x256_40_0, k0_pay4 a1 s⟩,
   ⟨Rect.unit ![0, 0] S40x256.size inb_S200x256_S40x256_0_0, k0_pay3 a0 s⟩]

/-- The five strips tile the 200 x 256 block: every index lies in one of them. -/
theorem outPieces_cover (a0 a1 a2 a3 a4 : Vec F S40x10000 .f32) (s : Vec F S10000x256 .bf16) (y : S200x256.Idx) :
    ∃ pc ∈ outPieces a0 a1 a2 a3 a4 s, y ∈ pc.1.set :=
  View.cover_of_tiled (outPieces a0 a1 a2 a3 a4 s) S40x256.size (by rfl) y

/-- What the body leaves in the result's staging buffer: the block assembled from the five strips. -/
def outBlk (a0 a1 a2 a3 a4 : Vec F S40x10000 .f32) (s : Vec F S10000x256 .bf16) : S200x256.Idx → Elt F .f32 :=
  View.canon (outPieces a0 a1 a2 a3 a4 s)

set_option maxHeartbeats 1000000 in
/-- The body at a LATER grid point (the branch not taken): the five adj blocks, x and w are read and left in
    place, the scratch is read five times and left at `s`, and the result's buffer ends at `outBlk a0 … a4 s`. -/
theorem sound_later (c : Dev nD) (i : grid0.Coords) (hc : ¬ isFirst i)
    (arg1 : Memref sig .tc .vmem S40x10000 .f32) (harg1 : arg1.IsWhole) (arg2 : Memref sig .tc .vmem S40x10000 .f32) (harg2 : arg2.IsWhole)
    (arg3 : Memref sig .tc .vmem S40x10000 .f32) (harg3 : arg3.IsWhole) (arg4 : Memref sig .tc .vmem S40x10000 .f32) (harg4 : arg4.IsWhole)
    (arg5 : Memref sig .tc .vmem S40x10000 .f32) (harg5 : arg5.IsWhole) (arg6 : Memref sig .tc .vmem S10000x256 .f32) (harg6 : arg6.IsWhole)
    (arg7 : Memref sig .tc .vmem S256x256 .f32) (harg7 : arg7.IsWhole) (arg8 : Memref sig .tc .vmem S200x256 .f32) (harg8 : arg8.IsWhole)
    (arg9 : Memref sig .tc .vmem S10000x256 .bf16) (harg9 : arg9.IsWhole)
    (a0 a1 a2 a3 a4 : Vec F S40x10000 .f32) (x : Vec F S10000x256 .f32) (w : Vec F S256x256 .f32) (s : Vec F S10000x256 .bf16)
    (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
        ∗ (∃ d, owns (c : Thread nD τ) arg8 fullShare d) ∗ owns (c : Thread nD τ) arg9 fullShare s
        ∗ (iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
            ∗ owns (c : Thread nD τ) arg8 fullShare (outBlk a0 a1 a2 a3 a4 s) ∗ owns (c : Thread nD τ) arg9 fullShare s) -∗ K ⟨⟩))
      ⊢ wp frame (wpE (defs₀ (F := F)) Variants.none c none) Set.univ (cc0__fused_body i arg1 harg1 arg2 harg2 arg3 harg3 arg4 harg4 arg5 harg5 arg6 harg6 arg7 harg7 arg8 harg8 arg9 harg9) K := by
  simp only [cc0__fused_body_eq_skeleton]; unfold cc0__fused_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    simp only [View.readAt_eq_ld, View.ld_unit_zero (S := S40x10000) off0, View.ld_unit_zero (S := S10000x256) off0]
    exact View.read_writes_eq_canon _ _ _ (outPieces_cover _ _ _ _ _ _)
  iexists f9; isplitr; · ipureintro; rfl
  iexact H9

/-- One store through the whole scratch covers every index of it. -/
theorem scratch_cover (v : Vec F S10000x256 .bf16) (y : S10000x256.Idx) :
    ∃ pc ∈ ([⟨Rect.unit ![0, 0] S10000x256.size inb_S10000x256_S10000x256_0_0, v⟩] : List (View.Piece (Elt F) S10000x256 .bf16)), y ∈ pc.1.set :=
  ⟨_, List.mem_singleton_self _, View.mem_set_unit_zero off0 inb_S10000x256_S10000x256_0_0 y⟩

set_option maxHeartbeats 1000000 in
/-- The body at the FIRST grid point (the branch taken): x and w are read, their product `k0_pay2 x w` is stored
    over the whole scratch (whatever it held), and the five strips are then computed from that scratch:
    the result's buffer ends at `outBlk a0 … a4 (k0_pay2 x w)` and the scratch at `k0_pay2 x w`. -/
theorem sound_first (c : Dev nD) (i : grid0.Coords) (hc : isFirst i)
    (arg1 : Memref sig .tc .vmem S40x10000 .f32) (harg1 : arg1.IsWhole) (arg2 : Memref sig .tc .vmem S40x10000 .f32) (harg2 : arg2.IsWhole)
    (arg3 : Memref sig .tc .vmem S40x10000 .f32) (harg3 : arg3.IsWhole) (arg4 : Memref sig .tc .vmem S40x10000 .f32) (harg4 : arg4.IsWhole)
    (arg5 : Memref sig .tc .vmem S40x10000 .f32) (harg5 : arg5.IsWhole) (arg6 : Memref sig .tc .vmem S10000x256 .f32) (harg6 : arg6.IsWhole)
    (arg7 : Memref sig .tc .vmem S256x256 .f32) (harg7 : arg7.IsWhole) (arg8 : Memref sig .tc .vmem S200x256 .f32) (harg8 : arg8.IsWhole)
    (arg9 : Memref sig .tc .vmem S10000x256 .bf16) (harg9 : arg9.IsWhole)
    (a0 a1 a2 a3 a4 : Vec F S40x10000 .f32) (x : Vec F S10000x256 .f32) (w : Vec F S256x256 .f32)
    (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
        ∗ (∃ d, owns (c : Thread nD τ) arg8 fullShare d) ∗ (∃ g, arg9.view.loc (c : Thread nD τ) ↦[arg9.view.set]{fullShare} g)
        ∗ (iprop(owns (c : Thread nD τ) arg1 fullShare a0 ∗ owns (c : Thread nD τ) arg2 fullShare a1 ∗ owns (c : Thread nD τ) arg3 fullShare a2
        ∗ owns (c : Thread nD τ) arg4 fullShare a3 ∗ owns (c : Thread nD τ) arg5 fullShare a4
        ∗ owns (c : Thread nD τ) arg6 fullShare x ∗ owns (c : Thread nD τ) arg7 fullShare w
            ∗ owns (c : Thread nD τ) arg8 fullShare (outBlk a0 a1 a2 a3 a4 (k0_pay2 x w)) ∗ owns (c : Thread nD τ) arg9 fullShare (k0_pay2 x w)) -∗ K ⟨⟩))
      ⊢ wp frame (wpE (defs₀ (F := F)) Variants.none c none) Set.univ (cc0__fused_body i arg1 harg1 arg2 harg2 arg3 harg3 arg4 harg4 arg5 harg5 arg6 harg6 arg7 harg7 arg8 harg8 arg9 harg9) K := by
  simp only [cc0__fused_body_eq_skeleton]; unfold cc0__fused_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, H9⟩, Hk⟩
  subst hf1 hf2 hf3 hf4 hf5 hf6 hf7
  sl_exec (disch := first | exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    sl_unfold_words
    simp only [View.readAt_eq_ld, View.ld_unit_zero (S := S40x10000) off0, View.ld_unit_zero (S := S10000x256) off0,
      View.ld_unit_zero (S := S256x256) off0, View.readCov_unit_zero (S := S10000x256) _ off0]
    exact View.read_writes_eq_canon _ _ _ (outPieces_cover _ _ _ _ _ _)
  iexists _; isplitr
  swap; · iexact H9
  ipureintro
  sl_unfold_words
  rw [View.read_writes_eq_canon _ _ _ (scratch_cover _), View.canon_unit_zero off0]
  simp only [View.readAt_eq_ld, View.ld_unit_zero (S := S10000x256) off0, View.ld_unit_zero (S := S256x256) off0]

end Cert.KernelIdeal.Hand

end
-- ==== Proof.KI.Data.lean ====
/-
  The proof data of the one pipeline.

  * The arrays are as launched (the program is the kernel region alone).
  * adj is handed to the kernel through five windows: window j at grid point t is rows 200 t + 40 j … + 39 of adj.
    The five windows only read adj, so adj's full share is dealt among them in five parts.
  * x and w are each one whole-array window, fetched at the first point only; the body never writes them, so their
    staging buffers hold x and w at every point.
  * The result's window is written back after every point; its block at point t is `outBlk` of the five adj blocks
    at t and of the scratch.
  * The scratch is carried from point to point: anything before point 0, the product x · w (`sup`) from point 1 on.
-/
import proofs.«111041_g76141180224082_cont_9to1_m_266_7_alg».proof.Proof.KI.Body
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's functions have no recursion variant. -/
abbrev 𝒱₀ : Variants := Variants.none

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- The program up to the region is the region alone. -/
theorem hmain : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- What the scratch holds from point 1 on: the product of x and w as the first point computes it. -/
def sup (c : Dev nD) : Vec F S10000x256 .bf16 := k0_pay2 (iblk m c 5 t0) (iblk m c 6 t0)

/-- The scratch buffer as a memref of its literal type. -/
abbrev scr : Memref sig .tc .vmem S10000x256 .bf16 := Memref.whole cc0_scratch0

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk (iblk m c 0 t) (iblk m c 1 t) (iblk m c 2 t) (iblk m c 3 t) (iblk m c 4 t) (sup m c)
  Φ t := iprop(∃ f : Buf (Elt F) ((c : Thread nD τ).loc cc0_scratch0),
      ⌜t.val ≠ 0 → scr.view.read (Elt F) f = sup m c⌝ ∗ ((c : Thread nD τ).loc cc0_scratch0) ↦{fullShare} f)
  q w := match w with
    | ⟨0, _⟩ => fullShare.left
    | ⟨1, _⟩ => fullShare.right.left
    | ⟨2, _⟩ => fullShare.right.right.left
    | ⟨3, _⟩ => fullShare.right.right.right.left
    | ⟨4, _⟩ => fullShare.right.right.right.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := rfl

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBlk (iblk m c 0 t) (iblk m c 1 t) (iblk m c 2 t) (iblk m c 3 t) (iblk m c 4 t) (sup m c) := by dsimp only [dats]

/-- The invariant before point `t`. -/
theorem Φ_eq (c : Dev nD) (t : Fin (cfg0.N + 1)) : (dats m 0 c).Φ t
    = iprop(∃ f : Buf (Elt F) ((c : Thread nD τ).loc cc0_scratch0),
        ⌜t.val ≠ 0 → scr.view.read (Elt F) f = sup m c⌝ ∗ ((c : Thread nD τ).loc cc0_scratch0) ↦{fullShare} f) := rfl

/-- Each input's current staging buffer holds its block at every point, fetched there or not: the body leaves the
    block in place, and an input not fetched at a point has the block index it had at the point before. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans
    (by unfold Dat.fetched Dat.blockOf iblk; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans
    (by unfold Dat.fetched Dat.blockOf iblk; rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; rfl) t d).trans
    (by unfold Dat.fetched Dat.blockOf iblk; rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; rfl) t d).trans
    (by unfold Dat.fetched Dat.blockOf iblk; rfl)

/-- x's and w's windows have one block, the whole array: at every point it is the block of the first point. -/
theorem iblk_5 (c : Dev nD) (t : Fin cfg0.N) : iblk m c 5 t = iblk m c 5 t0 := rfl
theorem iblk_6 (c : Dev nD) (t : Fin cfg0.N) : iblk m c 6 t = iblk m c 6 t0 := rfl

end Cert.KernelIdeal.Hand

end
-- ==== Proof.KI.Oblig.lean ====
/-
  The body obligation: at every grid point, from the invariant and each window's current staging buffer at what it
  then holds, the kernel body runs to the invariant of the next point and each buffer at what the proof data say.

  At point 0 the scratch is unconstrained and the body fills it with x · w; at a later point the invariant says the
  scratch reads x · w and the body leaves it so. The five adj windows hold their blocks, x's and w's windows hold x
  and w, and the result's buffer, whatever it held, ends at the block of five strips.
-/
import proofs.«111041_g76141180224082_cont_9to1_m_266_7_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch as the invariant holds it and as the body's run names it: one points-to. -/
theorem scr_eq (c : Dev nD) (f : Buf (Elt F) ((c : Thread nD τ).loc cc0_scratch0)) :
    (scr.view.loc (c : Thread nD τ) ↦[scr.view.set]{fullShare} f : sProp 𝕄)
      = ((c : Thread nD τ).loc cc0_scratch0) ↦{fullShare} f := by
  simp only [Memref.view_whole, View.set_whole]

/-- The scratch read as `X` through its memref is the buffer at contents that read as `X`. -/
theorem owns_scr (c : Dev nD) (X : Vec F S10000x256 .bf16) :
    (owns (c : Thread nD τ) scr fullShare X : sProp 𝕄)
      = iprop(∃ f : Buf (Elt F) ((c : Thread nD τ).loc cc0_scratch0), ⌜scr.view.read (Elt F) f = X⌝ ∗ ((c : Thread nD τ).loc cc0_scratch0) ↦{fullShare} f) := by
  unfold owns
  simp only [Memref.view_whole, View.set_whole]

/-- The scratch read as x · w re-establishes the invariant of any point. -/
theorem inv_of_owns (c : Dev nD) (n : ℕ) :
    (owns (c : Thread nD τ) scr fullShare (sup m c) : sProp 𝕄)
      ⊢ iprop(∃ f : Buf (Elt F) ((c : Thread nD τ).loc cc0_scratch0),
          ⌜n ≠ 0 → scr.view.read (Elt F) f = sup m c⌝ ∗ ((c : Thread nD τ).loc cc0_scratch0) ↦{fullShare} f) := by
  rw [owns_scr]
  iintro ⟨%f, %hf, H⟩
  iexists f; isplitr; · ipureintro; intro _; exact hf
  iexact H

/-- The scratch at contents that read as x · w is owned through its memref at x · w. -/
theorem owns_of_pts (c : Dev nD) (g : Buf (Elt F) ((c : Thread nD τ).loc cc0_scratch0)) (hs : scr.view.read (Elt F) g = sup m c) :
    (((c : Thread nD τ).loc cc0_scratch0) ↦{fullShare} g : sProp 𝕄) ⊢ owns (c : Thread nD τ) scr fullShare (sup m c) := by
  rw [owns_scr]
  iintro H
  iexists g; isplitr; · ipureintro; exact hs
  iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, Φ_eq, Φ_eq]
  iintro ⟨⟨%g, %hg, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases ht : t.val = 0
  · -- the first point: the scratch holds anything; the body fills it
    obtain rfl : t = t0 := Fin.ext ht
    have hc : isFirst (grid0.coords t0) := (isFirst_iff t0).mpr rfl
    iapply (sound_first c (grid0.coords t0) hc _ _ _ _ _ _ _ _ _ _ _ _ _ _ _ _ scr (Memref.isWhole_whole _)
      (iblk m c 0 t0) (iblk m c 1 t0) (iblk m c 2 t0) (iblk m c 3 t0) (iblk m c 4 t0) (iblk m c 5 t0) (iblk m c 6 t0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexists g; rw [scr_eq]; iexact HS
    iintro ⟨H0, H1, H2, H3, H4, H5, H6, H7, H9⟩
    isplitl [H9]
    · iapply (inv_of_owns m c _); iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · -- a later point: the scratch reads x · w and is left so
    have hc : ¬ isFirst (grid0.coords t) := fun h => ht ((isFirst_iff t).mp h)
    have hs : scr.view.read (Elt F) g = sup m c := hg ht
    iapply (sound_later c (grid0.coords t) hc _ _ _ _ _ _ _ _ _ _ _ _ _ _ _ _ scr (Memref.isWhole_whole _)
      (iblk m c 0 t) (iblk m c 1 t) (iblk m c 2 t) (iblk m c 3 t) (iblk m c 4 t) (iblk m c 5 t) (iblk m c 6 t) (sup m c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iapply (owns_of_pts m c g hs); iexact HS
    iintro ⟨H0, H1, H2, H3, H4, H5, H6, H7, H9⟩
    isplitl [H9]
    · iapply (inv_of_owns m c _); iexact H9
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (c : Dev nD) : BodyObligation (dats (F := F) m 0 c) (defs₀ (F := F)) 𝒱₀ () Set.univ := fun t => by
  rw [bigSep_W0, bigSep_W0]
  exact sound_body m c t

end Cert.KernelIdeal.Hand

end
-- ==== Proof.KI.Split.lean ====
/-
  adj is read through five windows. The launch hands the kernel each distinct array once, whole; the proof data hold
  adj once per window, at five shares that together make the whole. This module deals the whole among the five.
-/
import proofs.«111041_g76141180224082_cont_9to1_m_266_7_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The shares at which the proof data hold the windows' arrays: adj's five parts, and the whole for x, w and the result. -/
theorem share_0 (c : Dev nD) : (dats m 0 c).share 0 = fullShare.left := by
  unfold Dat.share; rw [if_neg (by decide)]; dsimp only [dats]
theorem share_1 (c : Dev nD) : (dats m 0 c).share 1 = fullShare.right.left := by
  unfold Dat.share; rw [if_neg (by decide)]; dsimp only [dats]
theorem share_2 (c : Dev nD) : (dats m 0 c).share 2 = fullShare.right.right.left := by
  unfold Dat.share; rw [if_neg (by decide)]; dsimp only [dats]
theorem share_3 (c : Dev nD) : (dats m 0 c).share 3 = fullShare.right.right.right.left := by
  unfold Dat.share; rw [if_neg (by decide)]; dsimp only [dats]
theorem share_4 (c : Dev nD) : (dats m 0 c).share 4 = fullShare.right.right.right.right := by
  unfold Dat.share; rw [if_neg (by decide)]; dsimp only [dats]
theorem share_5 (c : Dev nD) : (dats m 0 c).share 5 = fullShare := by
  unfold Dat.share; rw [if_neg (by decide)]; dsimp only [dats]
theorem share_6 (c : Dev nD) : (dats m 0 c).share 6 = fullShare := by
  unfold Dat.share; rw [if_neg (by decide)]; dsimp only [dats]
theorem share_7 (c : Dev nD) : (dats m 0 c).share 7 = fullShare := by
  unfold Dat.share; rw [if_pos (by decide)]

/-- The distinct arrays behind the eight windows are adj, x, w and the result: the launch's hand-over, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg1) ↦{fullShare} V m c main_arg1)
          ∗ (((c : Thread nD τ).loc main_arg0) ↦{fullShare} V m c main_arg0)
          ∗ (((c : Thread nD τ).loc main_arg2) ↦{fullShare} V m c main_arg2)
          ∗ (((c : Thread nD τ).loc main_v0) ↦{fullShare} V m c main_v0)) := by
  unfold Pipeline.arrBufs
  exact bigSep_eq_bigSepL_of_eq [main_arg1, main_arg0, main_arg2, main_v0] (by decide) (by decide) _

/-- The distinct arrays behind the windows, each whole at its launch contents, make the proof data's arrays at entry:
    adj's whole share split in five, x, w and the result each whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  -- the distinct arrays one by one on the left, the windows one by one on the right
  rw [arrBufs_eq]
  unfold Dat.arrays
  rw [bigSep_W0]
  -- each window's share, and each window's array a whole buffer
  rw [share_0, share_1, share_2, share_3, share_4, share_5, share_6, share_7]
  simp only [View.set_whole]
  iintro ⟨Hadj, Hx, Hw, Ho⟩
  -- adj: the whole is the left half and the right half, four times over
  ihave Hadj := (pointsTo_share (PosShare.mem_left_op_right fullShare)).1 $$ Hadj
  icases Hadj with ⟨H0, Hadj⟩
  ihave Hadj := (pointsTo_share (PosShare.mem_left_op_right fullShare.right)).1 $$ Hadj
  icases Hadj with ⟨H1, Hadj⟩
  ihave Hadj := (pointsTo_share (PosShare.mem_left_op_right fullShare.right.right)).1 $$ Hadj
  icases Hadj with ⟨H2, Hadj⟩
  ihave Hadj := (pointsTo_share (PosShare.mem_left_op_right fullShare.right.right.right)).1 $$ Hadj
  icases Hadj with ⟨H3, H4⟩
  isplitl [H0]; · iexact H0
  isplitl [H1]; · iexact H1
  isplitl [H2]; · iexact H2
  isplitl [H3]; · iexact H3
  isplitl [H4]; · iexact H4
  -- x, w and the result: each the one window of its array
  isplitl [Hx]; · iexact Hx
  isplitl [Hw]; · iexact Hw
  iexact Ho

end Cert.KernelIdeal.Hand

end
-- ==== Proof.KI.Launch.lean ====
/-
  The run of the program: the kernel region launched once, over windows that share the array adj.

  From the body obligation, the deal of adj among its five windows, and the scratch entering the region at anything
  and leaving it forgotten, every weakly fair execution terminates without a fault, and in the final state every
  window's array holds what the proof data compute for it: an input array its launch contents, the result the launch
  contents overwritten block by block by what each point left. The frame claim reads the three argument arrays off
  that; the value claim reads the result.
-/
import proofs.«111041_g76141180224082_cont_9to1_m_266_7_alg».proof.Proof.KI.Oblig
import proofs.«111041_g76141180224082_cont_9to1_m_266_7_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch enters the region at some contents; before point 0 the invariant asks no more. -/
theorem inv_entry (c : Dev nD) :
    (iprop(emp ∗ Pipeline.scopedRest (Ix := Unit) (Name := ℕ) (U := UR sig nD τ) (Lvl := ℕ) (Val := Elt F) spec0 c) : sProp 𝕄)
      ⊢ (dats m 0 c).Φ 0 := by
  rw [scopedRest0_eq, Φ_eq]
  iintro ⟨-, ⟨%f, H⟩⟩
  iexists f; isplitr; · ipureintro; intro h; exact absurd rfl h
  iexact H

/-- After the last point the scratch is given back at whatever it holds. -/
theorem inv_exit (c : Dev nD) :
    (dats m 0 c).Φ (Fin.last cfg0.N)
      ⊢ (iprop(emp ∗ Pipeline.scopedRest (Ix := Unit) (Name := ℕ) (U := UR sig nD τ) (Lvl := ℕ) (Val := Elt F) spec0 c) : sProp 𝕄) := by
  rw [scopedRest0_eq, Φ_eq]
  iintro ⟨%f, -, H⟩
  isplitr; · iempintro
  iexists f; iexact H

/-- THE RUN: every weakly fair execution terminates, nothing faulting, and every window's array ends at the proof
    data's final contents. -/
theorem run_main : θ_run defs (onTc (τ := τ) (main (F := F))) ⟨m, fun _ => 0, ρ⟩
    (fun r => ∀ c : Dev nD, ∀ w : Fin cfg0.W,
      r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := inv_entry m) (hout := inv_exit m)
    (QY := fun _ _ => True)
    (hY := fun c s' => by
      iintro ⟨-, -, HSI⟩
      imodintro
      isplitr; · ipureintro; trivial
      iexact HSI)
    (hQ := fun s h c w => (h c).1 w)

/-- THE FRAME: the three argument arrays end as they were launched (adj read through its first window). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 5).trans ((dats m 0 c).arrAt_in 5 rfl _), (h c 0).trans ((dats m 0 c).arrAt_in 0 rfl _), (h c 6).trans ((dats m 0 c).arrAt_in 6 rfl _)⟩)
    (run_main m ρ)

/-- THE RUN, read at the result and the arguments: the result array ends at the proof data's final contents of the
    result's window, the arguments as launched. -/
theorem run_result : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c 7, (h c 5).trans ((dats m 0 c).arrAt_in 5 rfl _), (h c 0).trans ((dats m 0 c).arrAt_in 0 rfl _), (h c 6).trans ((dats m 0 c).arrAt_in 6 rfl _)⟩)
    (run_main m ρ)

end Cert.KernelIdeal.Hand

end
-- ==== Proof.Spec.lean ====
/-
  The function both programs compute, index by index, over the extended reals:

      G x adj w (r, q) = Σ_k adj (r, k) · ( Σ_l x (k, l) · w (l, q) )

  that is adj · (x · w), with the inner product formed first. Both programs form the sums in this nesting, so no
  law of the extended reals beyond reading each matrix product as its sum is needed to join them.
-/
import Idealize.ShloMosaic.PureOps.Ideal
import Idealize.ShloMosaic.Lib.ValueIdx

noncomputable section

open scoped BigOperators

namespace Cert.Spec

open Idealize.ShloMosaic Idealize.ShloMosaic.ValueIdx

/-- The inner product x · w at (k, q). -/
def inner (x : (⟨2, ![10000, 256]⟩ : Shape).Idx → EReal) (w : (⟨2, ![256, 256]⟩ : Shape).Idx → EReal)
    (j : (⟨2, ![10000, 256]⟩ : Shape).Idx) : EReal :=
  ∑ l : Fin 256, x (ix2 (n0 := 10000) (n1 := 256) ⟨(j 0).val, (j 0).isLt⟩ l) * w (ix2 (n0 := 256) (n1 := 256) l ⟨(j 1).val, (j 1).isLt⟩)

/-- adj · (x · w) at (r, q). -/
def G (x : (⟨2, ![10000, 256]⟩ : Shape).Idx → EReal) (adj : (⟨2, ![10000, 10000]⟩ : Shape).Idx → EReal)
    (w : (⟨2, ![256, 256]⟩ : Shape).Idx → EReal) (i : (⟨2, ![10000, 256]⟩ : Shape).Idx) : EReal :=
  ∑ k : Fin 10000, adj (ix2 (n0 := 10000) (n1 := 10000) ⟨(i 0).val, (i 0).isLt⟩ k)
    * inner x w (ix2 (n0 := 10000) (n1 := 256) k ⟨(i 1).val, (i 1).isLt⟩)

end Cert.Spec

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.KI.Value.lean ====
/-
  The result array after the run, at the exact instance: every row block of 200 rows is written back once, block t
  holding five strips of 40 rows, strip j the product of rows 200 t + 40 j … of adj with the scratch x · w. Read
  index by index, the array is adj · (x · w).
-/
import proofs.«111041_g76141180224082_cont_9to1_m_266_7_alg».proof.Proof.KI.Data
import proofs.«111041_g76141180224082_cont_9to1_m_266_7_alg».proof.Proof.Spec
import proofs.«111041_g76141180224082_cont_9to1_m_266_7_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The function both programs compute, at the argument arrays of core `c`, as contents of the result's buffer. -/
def Gm (c : Dev nD) : Buf (Elt Ideal) ((c : Thread nD τ).loc main_v0) :=
  Cert.Spec.G (m ((c : Thread nD τ).loc main_arg0)) (m ((c : Thread nD τ).loc main_arg1)) (m ((c : Thread nD τ).loc main_arg2))

open Idealize.ShloMosaic.ValueIdx
open scoped BigOperators

/-! ## The two matrix products at an index -/

/-- A strip's product: the 40 x 10000 block times the 10000 x 256 scratch, into the zero accumulator, at (p, q) is the
    sum over the contracted coordinate. -/
theorem strip_apply (a : FVec Ideal S40x10000 .f32) (s : FVec Ideal S10000x256 .bf16) (p : Fin 40) (q : Fin 256) :
    (matmul dot_S40x10000_S10000x256_S40x256_1_0_0_1_n_n none (truncf .bf16 a bitsLt_bf16_f32) s
        (constant (F := Ideal) S40x256 .f32 0x00000000#32) : FVec Ideal S40x256 .f32) (ix2 p q)
      = ∑ k : Fin 10000, a (ix2 p k) * s (ix2 k q) :=
  PlainDot.matmul_zero_apply 40 10000 256 (truncf .bf16 a bitsLt_bf16_f32) s (ix2 p q)

/-- The five strips' payloads are that product of their block. -/
theorem pay1_apply (a : FVec Ideal S40x10000 .f32) (s : FVec Ideal S10000x256 .bf16) (p : Fin 40) (q : Fin 256) :
    k0_pay1 a s (ix2 p q) = ∑ k : Fin 10000, a (ix2 p k) * s (ix2 k q) := strip_apply a s p q
theorem pay3_apply (a : FVec Ideal S40x10000 .f32) (s : FVec Ideal S10000x256 .bf16) (p : Fin 40) (q : Fin 256) :
    k0_pay3 a s (ix2 p q) = ∑ k : Fin 10000, a (ix2 p k) * s (ix2 k q) := strip_apply a s p q
theorem pay4_apply (a : FVec Ideal S40x10000 .f32) (s : FVec Ideal S10000x256 .bf16) (p : Fin 40) (q : Fin 256) :
    k0_pay4 a s (ix2 p q) = ∑ k : Fin 10000, a (ix2 p k) * s (ix2 k q) := strip_apply a s p q
theorem pay5_apply (a : FVec Ideal S40x10000 .f32) (s : FVec Ideal S10000x256 .bf16) (p : Fin 40) (q : Fin 256) :
    k0_pay5 a s (ix2 p q) = ∑ k : Fin 10000, a (ix2 p k) * s (ix2 k q) := strip_apply a s p q
theorem pay6_apply (a : FVec Ideal S40x10000 .f32) (s : FVec Ideal S10000x256 .bf16) (p : Fin 40) (q : Fin 256) :
    k0_pay6 a s (ix2 p q) = ∑ k : Fin 10000, a (ix2 p k) * s (ix2 k q) := strip_apply a s p q

/-- The scratch's payload: the product x · w into the zero accumulator, at (k, q), is the inner sum of the specification. -/
theorem pay2_apply (x : Vec Ideal S10000x256 .f32) (w : Vec Ideal S256x256 .f32) (k : Fin 10000) (q : Fin 256) :
    k0_pay2 x w (ix2 k q) = Cert.Spec.inner x w (ix2 k q) := by
  unfold k0_pay2
  rw [shapeCast_self]
  exact PlainDot.matmul_zero_apply 10000 256 256 (truncf .bf16 x bitsLt_bf16_f32) (truncf .bf16 w bitsLt_bf16_f32) (ix2 k q)

/-! ## The windows' blocks, read off the arrays -/

/-- The block index maps over the 50 grid points: window j of adj is at block row 5 t + j and block column 0; x's and
    w's one block is at (0, 0); the result's block is at block row t and block column 0. -/
theorem idx_facts : ∀ t : Fin cfg0.N,
    (win0_0.index t (0 : Fin 2) = 5 * t.val + 0 ∧ win0_0.index t (1 : Fin 2) = 0)
    ∧ (win0_1.index t (0 : Fin 2) = 5 * t.val + 1 ∧ win0_1.index t (1 : Fin 2) = 0)
    ∧ (win0_2.index t (0 : Fin 2) = 5 * t.val + 2 ∧ win0_2.index t (1 : Fin 2) = 0)
    ∧ (win0_3.index t (0 : Fin 2) = 5 * t.val + 3 ∧ win0_3.index t (1 : Fin 2) = 0)
    ∧ (win0_4.index t (0 : Fin 2) = 5 * t.val + 4 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Window 0's block at point t is rows (5 t + 0) · 40 … of adj, all columns. -/
theorem adj0_apply (c : Dev nD) (t : Fin cfg0.N) (p : Fin 40) (k : Fin 10000) (r : Fin 10000) (hr : r.val = (5 * t.val + 0) * 40 + p.val) :
    (iblk m c 0 t : Vec Ideal S40x10000 .f32) (ix2 p k) = (m ((c : Thread nD τ).loc main_arg1) : S10000x10000.Idx → EReal) (ix2 r k) := by
  obtain ⟨e0, e1⟩ := (idx_facts t).1
  unfold iblk
  rw [View.read_apply]
  show V m c main_arg1 _ = m (c.tc.loc main_arg1) _
  unfold V
  refine congrArg _ ?_
  funext a
  apply Fin.ext
  match a with
  | ⟨0, _⟩ => show win0_0.index t (0 : Fin 2) * 40 + 1 * p.val = r.val; rw [e0, hr]; omega
  | ⟨1, _⟩ => show win0_0.index t (1 : Fin 2) * 10000 + 1 * k.val = k.val; rw [e1]; omega

/-- Window 1's block at point t is rows (5 t + 1) · 40 … of adj, all columns. -/
theorem adj1_apply (c : Dev nD) (t : Fin cfg0.N) (p : Fin 40) (k : Fin 10000) (r : Fin 10000) (hr : r.val = (5 * t.val + 1) * 40 + p.val) :
    (iblk m c 1 t : Vec Ideal S40x10000 .f32) (ix2 p k) = (m ((c : Thread nD τ).loc main_arg1) : S10000x10000.Idx → EReal) (ix2 r k) := by
  obtain ⟨e0, e1⟩ := (idx_facts t).2.1
  unfold iblk
  rw [View.read_apply]
  show V m c main_arg1 _ = m (c.tc.loc main_arg1) _
  unfold V
  refine congrArg _ ?_
  funext a
  apply Fin.ext
  match a with
  | ⟨0, _⟩ => show win0_1.index t (0 : Fin 2) * 40 + 1 * p.val = r.val; rw [e0, hr]; omega
  | ⟨1, _⟩ => show win0_1.index t (1 : Fin 2) * 10000 + 1 * k.val = k.val; rw [e1]; omega

/-- Window 2's block at point t is rows (5 t + 2) · 40 … of adj, all columns. -/
theorem adj2_apply (c : Dev nD) (t : Fin cfg0.N) (p : Fin 40) (k : Fin 10000) (r : Fin 10000) (hr : r.val = (5 * t.val + 2) * 40 + p.val) :
    (iblk m c 2 t : Vec Ideal S40x10000 .f32) (ix2 p k) = (m ((c : Thread nD τ).loc main_arg1) : S10000x10000.Idx → EReal) (ix2 r k) := by
  obtain ⟨e0, e1⟩ := (idx_facts t).2.2.1
  unfold iblk
  rw [View.read_apply]
  show V m c main_arg1 _ = m (c.tc.loc main_arg1) _
  unfold V
  refine congrArg _ ?_
  funext a
  apply Fin.ext
  match a with
  | ⟨0, _⟩ => show win0_2.index t (0 : Fin 2) * 40 + 1 * p.val = r.val; rw [e0, hr]; omega
  | ⟨1, _⟩ => show win0_2.index t (1 : Fin 2) * 10000 + 1 * k.val = k.val; rw [e1]; omega

/-- Window 3's block at point t is rows (5 t + 3) · 40 … of adj, all columns. -/
theorem adj3_apply (c : Dev nD) (t : Fin cfg0.N) (p : Fin 40) (k : Fin 10000) (r : Fin 10000) (hr : r.val = (5 * t.val + 3) * 40 + p.val) :
    (iblk m c 3 t : Vec Ideal S40x10000 .f32) (ix2 p k) = (m ((c : Thread nD τ).loc main_arg1) : S10000x10000.Idx → EReal) (ix2 r k) := by
  obtain ⟨e0, e1⟩ := (idx_facts t).2.2.2.1
  unfold iblk
  rw [View.read_apply]
  show V m c main_arg1 _ = m (c.tc.loc main_arg1) _
  unfold V
  refine congrArg _ ?_
  funext a
  apply Fin.ext
  match a with
  | ⟨0, _⟩ => show win0_3.index t (0 : Fin 2) * 40 + 1 * p.val = r.val; rw [e0, hr]; omega
  | ⟨1, _⟩ => show win0_3.index t (1 : Fin 2) * 10000 + 1 * k.val = k.val; rw [e1]; omega

/-- Window 4's block at point t is rows (5 t + 4) · 40 … of adj, all columns. -/
theorem adj4_apply (c : Dev nD) (t : Fin cfg0.N) (p : Fin 40) (k : Fin 10000) (r : Fin 10000) (hr : r.val = (5 * t.val + 4) * 40 + p.val) :
    (iblk m c 4 t : Vec Ideal S40x10000 .f32) (ix2 p k) = (m ((c : Thread nD τ).loc main_arg1) : S10000x10000.Idx → EReal) (ix2 r k) := by
  obtain ⟨e0, e1⟩ := (idx_facts t).2.2.2.2.1
  unfold iblk
  rw [View.read_apply]
  show V m c main_arg1 _ = m (c.tc.loc main_arg1) _
  unfold V
  refine congrArg _ ?_
  funext a
  apply Fin.ext
  match a with
  | ⟨0, _⟩ => show win0_4.index t (0 : Fin 2) * 40 + 1 * p.val = r.val; rw [e0, hr]; omega
  | ⟨1, _⟩ => show win0_4.index t (1 : Fin 2) * 10000 + 1 * k.val = k.val; rw [e1]; omega

/-- x's one block is the whole array. -/
theorem xblk_apply (c : Dev nD) (y : S10000x256.Idx) :
    (iblk m c 5 t0 : Vec Ideal S10000x256 .f32) y = (m ((c : Thread nD τ).loc main_arg0) : S10000x256.Idx → EReal) y := by
  obtain ⟨e0, e1⟩ := (idx_facts t0).2.2.2.2.2.1
  unfold iblk
  rw [View.read_apply]
  show V m c main_arg0 _ = m (c.tc.loc main_arg0) _
  unfold V
  refine congrArg _ ?_
  funext a
  apply Fin.ext
  match a with
  | ⟨0, _⟩ => show win0_5.index t0 (0 : Fin 2) * 10000 + 1 * (y 0).val = (y 0).val; rw [e0]; omega
  | ⟨1, _⟩ => show win0_5.index t0 (1 : Fin 2) * 256 + 1 * (y 1).val = (y 1).val; rw [e1]; omega

/-- w's one block is the whole array. -/
theorem wblk_apply (c : Dev nD) (y : S256x256.Idx) :
    (iblk m c 6 t0 : Vec Ideal S256x256 .f32) y = (m ((c : Thread nD τ).loc main_arg2) : S256x256.Idx → EReal) y := by
  obtain ⟨e0, e1⟩ := (idx_facts t0).2.2.2.2.2.2.1
  unfold iblk
  rw [View.read_apply]
  show V m c main_arg2 _ = m (c.tc.loc main_arg2) _
  unfold V
  refine congrArg _ ?_
  funext a
  apply Fin.ext
  match a with
  | ⟨0, _⟩ => show win0_6.index t0 (0 : Fin 2) * 256 + 1 * (y 0).val = (y 0).val; rw [e0]; omega
  | ⟨1, _⟩ => show win0_6.index t0 (1 : Fin 2) * 256 + 1 * (y 1).val = (y 1).val; rw [e1]; omega

/-- The scratch from point 1 on holds x · w: at (k, q) the inner sum of the specification. -/
theorem sup_apply (c : Dev nD) (k : Fin 10000) (q : Fin 256) :
    (sup m c : Vec Ideal S10000x256 .bf16) (ix2 k q)
      = Cert.Spec.inner (m ((c : Thread nD τ).loc main_arg0)) (m ((c : Thread nD τ).loc main_arg2)) (ix2 k q) := by
  unfold sup
  refine (pay2_apply (iblk m c 5 t0) (iblk m c 6 t0) k q).trans ?_
  unfold Cert.Spec.inner
  exact Finset.sum_congr rfl fun l _ => by rw [xblk_apply m c, wblk_apply m c]

/-! ## One point's block is its rows of adj · (x · w) -/

/-- The specification at (r, q). -/
theorem G_apply (X : S10000x256.Idx → EReal) (ADJ : S10000x10000.Idx → EReal) (W : S256x256.Idx → EReal) (r : Fin 10000) (q : Fin 256) :
    Cert.Spec.G X ADJ W (ix2 r q) = ∑ k : Fin 10000, ADJ (ix2 r k) * Cert.Spec.inner X W (ix2 k q) := rfl

/-- A strip whose block is rows R … R + 39 of adj, over a scratch holding x · w, is rows R … of adj · (x · w). -/
theorem strip_is_G (X : S10000x256.Idx → EReal) (ADJ : S10000x10000.Idx → EReal) (W : S256x256.Idx → EReal)
    (a : FVec Ideal S40x10000 .f32) (s : FVec Ideal S10000x256 .bf16) (R : Nat) (hR : R + 40 ≤ 10000)
    (ha : ∀ (p : Fin 40) (k : Fin 10000), a (ix2 p k) = ADJ (ix2 ⟨R + p.val, by omega⟩ k))
    (hs : ∀ (k : Fin 10000) (q : Fin 256), s (ix2 k q) = Cert.Spec.inner X W (ix2 k q))
    (p : Fin 40) (q : Fin 256) :
    ∑ k : Fin 10000, a (ix2 p k) * s (ix2 k q) = Cert.Spec.G X ADJ W (ix2 ⟨R + p.val, by omega⟩ q) := by
  rw [G_apply]
  exact Finset.sum_congr rfl fun k _ => by rw [ha p k, hs k q]

/-- The block the five strips leave, when strip j's block is rows T + 40 j … of adj and the scratch holds x · w, is
    rows T … T + 199 of adj · (x · w). -/
theorem outBlk_is_G (X : S10000x256.Idx → EReal) (ADJ : S10000x10000.Idx → EReal) (W : S256x256.Idx → EReal)
    (a0 a1 a2 a3 a4 : FVec Ideal S40x10000 .f32) (s : FVec Ideal S10000x256 .bf16) (T : Nat) (hT : T + 200 ≤ 10000)
    (h0 : ∀ (p : Fin 40) (k : Fin 10000), a0 (ix2 p k) = ADJ (ix2 ⟨T + 0 + p.val, by omega⟩ k))
    (h1 : ∀ (p : Fin 40) (k : Fin 10000), a1 (ix2 p k) = ADJ (ix2 ⟨T + 40 + p.val, by omega⟩ k))
    (h2 : ∀ (p : Fin 40) (k : Fin 10000), a2 (ix2 p k) = ADJ (ix2 ⟨T + 80 + p.val, by omega⟩ k))
    (h3 : ∀ (p : Fin 40) (k : Fin 10000), a3 (ix2 p k) = ADJ (ix2 ⟨T + 120 + p.val, by omega⟩ k))
    (h4 : ∀ (p : Fin 40) (k : Fin 10000), a4 (ix2 p k) = ADJ (ix2 ⟨T + 160 + p.val, by omega⟩ k))
    (hs : ∀ (k : Fin 10000) (q : Fin 256), s (ix2 k q) = Cert.Spec.inner X W (ix2 k q))
    (y : S200x256.Idx) :
    outBlk (F := Ideal) a0 a1 a2 a3 a4 s y
      = Cert.Spec.G X ADJ W (ix2 ⟨T + (y 0).val, by have := idx2_lt0 y; omega⟩ ⟨(y 1).val, idx2_lt1 y⟩) := by
  unfold outBlk
  refine View.canon_apply_of_pieces (Val := Elt Ideal) (S := S200x256) (e := .f32)
    (fun z : S200x256.Idx => Cert.Spec.G X ADJ W (ix2 ⟨T + (z 0).val, by have := idx2_lt0 z; omega⟩ ⟨(z 1).val, idx2_lt1 z⟩))
    (outPieces (F := Ideal) a0 a1 a2 a3 a4 s) ?_ y (outPieces_cover (F := Ideal) a0 a1 a2 a3 a4 s y)
  intro pc hpc x
  simp only [outPieces, List.mem_cons, List.not_mem_nil, or_false] at hpc
  rcases hpc with rfl | rfl | rfl | rfl | rfl
  · obtain ⟨p, q, rfl⟩ : ∃ (p : Fin 40) (q : Fin 256), x = ix2 p q := ⟨x 0, x 1, eq_ix2 x⟩
    refine (pay1_apply a4 s p q).trans ((strip_is_G X ADJ W a4 s (T + 160) (by omega) h4 hs p q).trans ?_)
    refine congrArg (Cert.Spec.G X ADJ W) ?_
    funext a; apply Fin.ext
    match a with
    | ⟨0, _⟩ => show T + 160 + p.val = T + (160 + 1 * p.val); omega
    | ⟨1, _⟩ => show q.val = 0 + 1 * q.val; omega
  · obtain ⟨p, q, rfl⟩ : ∃ (p : Fin 40) (q : Fin 256), x = ix2 p q := ⟨x 0, x 1, eq_ix2 x⟩
    refine (pay6_apply a3 s p q).trans ((strip_is_G X ADJ W a3 s (T + 120) (by omega) h3 hs p q).trans ?_)
    refine congrArg (Cert.Spec.G X ADJ W) ?_
    funext a; apply Fin.ext
    match a with
    | ⟨0, _⟩ => show T + 120 + p.val = T + (120 + 1 * p.val); omega
    | ⟨1, _⟩ => show q.val = 0 + 1 * q.val; omega
  · obtain ⟨p, q, rfl⟩ : ∃ (p : Fin 40) (q : Fin 256), x = ix2 p q := ⟨x 0, x 1, eq_ix2 x⟩
    refine (pay5_apply a2 s p q).trans ((strip_is_G X ADJ W a2 s (T + 80) (by omega) h2 hs p q).trans ?_)
    refine congrArg (Cert.Spec.G X ADJ W) ?_
    funext a; apply Fin.ext
    match a with
    | ⟨0, _⟩ => show T + 80 + p.val = T + (80 + 1 * p.val); omega
    | ⟨1, _⟩ => show q.val = 0 + 1 * q.val; omega
  · obtain ⟨p, q, rfl⟩ : ∃ (p : Fin 40) (q : Fin 256), x = ix2 p q := ⟨x 0, x 1, eq_ix2 x⟩
    refine (pay4_apply a1 s p q).trans ((strip_is_G X ADJ W a1 s (T + 40) (by omega) h1 hs p q).trans ?_)
    refine congrArg (Cert.Spec.G X ADJ W) ?_
    funext a; apply Fin.ext
    match a with
    | ⟨0, _⟩ => show T + 40 + p.val = T + (40 + 1 * p.val); omega
    | ⟨1, _⟩ => show q.val = 0 + 1 * q.val; omega
  · obtain ⟨p, q, rfl⟩ : ∃ (p : Fin 40) (q : Fin 256), x = ix2 p q := ⟨x 0, x 1, eq_ix2 x⟩
    refine (pay3_apply a0 s p q).trans ((strip_is_G X ADJ W a0 s (T + 0) (by omega) h0 hs p q).trans ?_)
    refine congrArg (Cert.Spec.G X ADJ W) ?_
    funext a; apply Fin.ext
    match a with
    | ⟨0, _⟩ => show T + 0 + p.val = T + (0 + 1 * p.val); omega
    | ⟨1, _⟩ => show q.val = 0 + 1 * q.val; omega

/-! ## From blocks to the array -/

/-- What point t writes back is rows 200 t … 200 t + 199 of adj · (x · w): block t of the result. -/
theorem flushed_eq (c : Dev nD) (t : Fin cfg0.N) :
    (dats (F := Ideal) m 0 c).flushed 7 t = ((cfg0.win 7).blk t).view.read (Elt Ideal) (Gm m c) := by
  have hN : cfg0.N = 50 := N_0
  have ht : t.val < 50 := by have := t.isLt; omega
  obtain ⟨e0, e1⟩ := (idx_facts t).2.2.2.2.2.2.2
  show (cfg0.win 7).cut (grid0.coords t) ((dats (F := Ideal) m 0 c).after 7 t) = _
  rw [after_7]
  funext y
  rw [View.read_apply]
  refine (outBlk_is_G (m ((c : Thread nD τ).loc main_arg0)) (m ((c : Thread nD τ).loc main_arg1)) (m ((c : Thread nD τ).loc main_arg2))
    (iblk m c 0 t) (iblk m c 1 t) (iblk m c 2 t) (iblk m c 3 t) (iblk m c 4 t) (sup m c) (200 * t.val) (by omega)
    (fun p k => adj0_apply m c t p k _ (by show 200 * t.val + 0 + p.val = (5 * t.val + 0) * 40 + p.val; omega))
    (fun p k => adj1_apply m c t p k _ (by show 200 * t.val + 40 + p.val = (5 * t.val + 1) * 40 + p.val; omega))
    (fun p k => adj2_apply m c t p k _ (by show 200 * t.val + 80 + p.val = (5 * t.val + 2) * 40 + p.val; omega))
    (fun p k => adj3_apply m c t p k _ (by show 200 * t.val + 120 + p.val = (5 * t.val + 3) * 40 + p.val; omega))
    (fun p k => adj4_apply m c t p k _ (by show 200 * t.val + 160 + p.val = (5 * t.val + 4) * 40 + p.val; omega))
    (fun k q => sup_apply m c k q) _).trans ?_
  show Cert.Spec.G _ _ _ _ = Gm m c (((cfg0.win 7).blk t).view.emb y)
  unfold Gm
  refine congrArg (Cert.Spec.G _ _ _) ?_
  funext a; apply Fin.ext
  match a with
  | ⟨0, _⟩ => show 200 * t.val + (y 0).val = win0_7.index t (0 : Fin 2) * 200 + 1 * (y 0).val; rw [e0]; omega
  | ⟨1, _⟩ => show (y 1).val = win0_7.index t (1 : Fin 2) * 256 + 1 * (y 1).val; rw [e1]; omega

/-- An index of the result is in point t's block iff each coordinate is in the block's range on its axis. -/
theorem mem_blk (t : Fin cfg0.N) (i : S10000x256.Idx) :
    i ∈ ((cfg0.win 7).blk t).view.set ↔ ∀ a : Fin 2, win0_7.index t a * S200x256.size a ≤ (i a).val ∧ (i a).val < win0_7.index t a * S200x256.size a + S200x256.size a := by
  show i ∈ ((View.whole main_v0).slice (win0_7.rect t)).set ↔ _
  rw [View.set_slice_whole, Rect.mem_set_unit]
  exact Iff.rfl

/-- Row r of the result lies in the block of point r / 200: the 50 blocks tile the array. -/
theorem cover (i : S10000x256.Idx) : ∃ t : Fin cfg0.N, (cfg0.win 7).flush t = true ∧ i ∈ ((cfg0.win 7).blk t).view.set := by
  have hN : cfg0.N = 50 := N_0
  have hi0 : (i 0).val < 10000 := idx2_lt0 i
  have hi1 : (i 1).val < 256 := idx2_lt1 i
  obtain ⟨t, ht⟩ : ∃ t : Fin cfg0.N, t.val = (i 0).val / 200 := ⟨⟨(i 0).val / 200, by omega⟩, rfl⟩
  obtain ⟨e0, e1⟩ := (idx_facts t).2.2.2.2.2.2.2
  refine ⟨t, flush0_7 t, ?_⟩
  rw [mem_blk]
  intro a
  match a with
  | ⟨0, _⟩ => show win0_7.index t (0 : Fin 2) * 200 ≤ (i 0).val ∧ (i 0).val < win0_7.index t (0 : Fin 2) * 200 + 200; rw [e0]; omega
  | ⟨1, _⟩ => show win0_7.index t (1 : Fin 2) * 256 ≤ (i 1).val ∧ (i 1).val < win0_7.index t (1 : Fin 2) * 256 + 256; rw [e1]; omega

/-- THE RESULT ARRAY after every write-back is adj · (x · w). -/
theorem final (c : Dev nD) : (dats (F := Ideal) m 0 c).arrAt 7 cfg0.N = Gm m c := by
  exact (dats (F := Ideal) m 0 c).arrAt_eq_of_cover 7 (Gm m c) (fun t _ => flushed_eq m c t) cover

end Cert.KernelIdeal.Hand

end
-- ==== Proof.RefSide.lean ====
/-
  The reference computes adj · (x · w) by two host matrix products, the second over the first's result. Read at an
  index, each product is the sum over its contracted coordinate, so the reference's result is the function `G` of
  the argument arrays: the same nesting of the two sums, term by term.
-/
import proofs.«111041_g76141180224082_cont_9to1_m_266_7_alg».proof.Proof.Gen.ReferenceIdeal.Run
import proofs.«111041_g76141180224082_cont_9to1_m_266_7_alg».proof.Proof.Gen.ReferenceIdeal.Read
import proofs.«111041_g76141180224082_cont_9to1_m_266_7_alg».proof.Proof.Spec

noncomputable section

namespace Cert.ReferenceIdeal.RefValue

open Cert.ReferenceIdeal Cert.ReferenceIdeal.Read Idealize.ShloMosaic Idealize.ShloMosaic.ValueIdx

/-- The reference's result, as a function of the three argument arrays, is adj · (x · w) index by index. -/
theorem ref_is_G (x0 : (⟨S10000x256, .f32⟩ : BufTy).Contents (Elt Ideal)) (x1 : (⟨S10000x10000, .f32⟩ : BufTy).Contents (Elt Ideal))
    (x2 : (⟨S256x256, .f32⟩ : BufTy).Contents (Elt Ideal)) :
    val_main_v1 (F := Ideal) x0 x1 x2 = Cert.Spec.G x0 x1 x2 := by
  funext i
  rw [val_main_v1_apply]
  unfold Cert.Spec.G
  refine Finset.sum_congr rfl fun k _ => ?_
  rw [val_main_v0_apply]
  unfold Cert.Spec.inner
  have e1 : lidx_main_v1 i k = ix2 (n0 := 10000) (n1 := 10000) ⟨(i 0).val, (i 0).isLt⟩ k :=
    funext fun a => Fin.ext (by match a with | ⟨0, _⟩ => rfl | ⟨1, _⟩ => rfl)
  have e2 : ∀ l : Fin 256, lidx_main_v0 (ridx_main_v1 i k) l
      = ix2 (n0 := 10000) (n1 := 256) ⟨((ix2 (n0 := 10000) (n1 := 256) k ⟨(i 1).val, (i 1).isLt⟩) 0).val, ((ix2 (n0 := 10000) (n1 := 256) k ⟨(i 1).val, (i 1).isLt⟩) 0).isLt⟩ l :=
    fun l => funext fun a => Fin.ext (by match a with | ⟨0, _⟩ => rfl | ⟨1, _⟩ => rfl)
  have e3 : ∀ l : Fin 256, ridx_main_v0 (ridx_main_v1 i k) l
      = ix2 (n0 := 256) (n1 := 256) l ⟨((ix2 (n0 := 10000) (n1 := 256) k ⟨(i 1).val, (i 1).isLt⟩) 1).val, ((ix2 (n0 := 10000) (n1 := 256) k ⟨(i 1).val, (i 1).isLt⟩) 1).isLt⟩ :=
    fun l => funext fun a => Fin.ext (by match a with | ⟨0, _⟩ => rfl | ⟨1, _⟩ => rfl)
  rw [e1]
  congr 1
  exact Finset.sum_congr rfl fun l _ => by rw [e2 l, e3 l]

end Cert.ReferenceIdeal.RefValue

end
-- ==== Proof.lean ====
/-
  The kernel computes out = adj · (x · w) for adj : 10000 x 10000, x : 10000 x 256, w : 256 x 256 in one fused region
  over 50 grid points: the first point forms x · w once into a scratch that persists across the grid, and every point
  multiplies five 40-row blocks of adj with that scratch, writing 200 rows of the result. The reference forms the same
  two products on the host. Over the extended reals the change of float format is the identity and a matrix product
  into a zero accumulator is the plain sum over the contracted coordinate, so both programs compute

      out (r, q) = Σ_k adj (r, k) · ( Σ_l x (k, l) · w (l, q) )

  with the sums nested the same way: no law beyond reading the products as sums joins them.

  * The three frames: the kernel's (at the word level and idealized) from the run of its one region, whose windows share
    the array adj; the reference's from its generated run.
  * The idealization rewrote nothing, so it preserves the kernel trivially.
  * The value claim: the result array after the region's write-backs is the function above of the argument arrays,
    and so is the reference's result.
-/
import proofs.«111041_g76141180224082_cont_9to1_m_266_7_alg».proof.Defs
import proofs.«111041_g76141180224082_cont_9to1_m_266_7_alg».proof.Proof.Gen.Kernel
import proofs.«111041_g76141180224082_cont_9to1_m_266_7_alg».proof.Proof.Gen.KernelIdeal
import proofs.«111041_g76141180224082_cont_9to1_m_266_7_alg».proof.Proof.Gen.ReferenceIdeal
import proofs.«111041_g76141180224082_cont_9to1_m_266_7_alg».proof.Proof.Gen.Pre_finite_inputs
import proofs.«111041_g76141180224082_cont_9to1_m_266_7_alg».proof.Proof.K.Launch
import proofs.«111041_g76141180224082_cont_9to1_m_266_7_alg».proof.Proof.KI.Launch
import proofs.«111041_g76141180224082_cont_9to1_m_266_7_alg».proof.Proof.KI.Value
import proofs.«111041_g76141180224082_cont_9to1_m_266_7_alg».proof.Proof.RefSide
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at adj · (x · w) of arguments that agree. -/
theorem algebraic : Cert.algebraic_KernelIdeal_ReferenceIdeal := by
  intro m ρ m' ρ' _ hagree
  refine ⟨fun c => Cert.KernelIdeal.Hand.Gm m c, ?_, ?_⟩
  · exact (θ_run Cert.KernelIdeal.defs _ _).mono
      (fun r h c => ⟨(h c).1.trans (Cert.KernelIdeal.Hand.final m c), (h c).2⟩)
      (Cert.KernelIdeal.Hand.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v1_eq, Cert.ReferenceIdeal.RefValue.ref_is_G,
      (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
